-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S1x131072x256 : Shape := ⟨3, ![1, 131072, 256]⟩
abbrev S256x128 : Shape := ⟨2, ![256, 128]⟩
abbrev S256 : Shape := ⟨1, ![256]⟩
abbrev S768x256 : Shape := ⟨2, ![768, 256]⟩
abbrev S768 : Shape := ⟨1, ![768]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S1x131072x256 : S_.BroadcastsInDim S1x131072x256 (![] : Fin 0 → Fin S1x131072x256.rank)
  reducesTo_S1x131072x256_S_d0_1_2 : S1x131072x256.ReducesTo [0, 1, 2] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg4 : FVec F S768x256 .f32) (main_arg5 : FVec F S768x256 .f32) (main_arg6 : FVec F S768 .f32) (main_arg7 : FVec F S768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S768x256 .f32 := Host.absf main_arg4
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S768x256 .f32 := Host.absf main_arg5
  let main_cst_8 : FVec F S_ .f32 := constant S_ .f32 0x7F800000#32
  let main_v25 : FVec F S768x256 .f32 := broadcastInDim S768x256 ![] bcast_S_S768x256 main_cst_8
  let main_v26 : IVec S768x256 1 := cmpf .olt main_v24 main_v25
  let main_c_9 : IVec S_ 1 := constantI S_ 1 1#1
  let main_v27 : IVec S_ 1 := (fun x v => Host.reduce IntOp.andi x v reducesTo_S768x256_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_v33

def fn {F : FTy → Type} [FloatOps F] (main_arg0 : FVec F S131072x128 .f32) (main_arg1 : FVec F S1x131072x256 .f32) (main_arg2 : FVec F S256x128 .f32) (main_arg3 : FVec F S256 .f32) (main_arg4 : FVec F S768x256 .f32) (main_arg5 : FVec F S768x256 .f32) (main_arg6 : FVec F S768 .f32) (main_arg7 : FVec F S768 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S1x131072x256 .f32 := Host.absf main_arg1
  let main_cst_0 : FVec F S_ .f32 := constant S_ .f32 0x7F800000#32
  let main_v5 : FVec F S1x131072x256 .f32 := broadcastInDim S1x131072x256 ![] bcast_S_S1x131072x256 main_cst_0
  let main_v6 : IVec S1x131072x256 1 := cmpf .olt main_v4 main_v5
  let main_c_1 : IVec S_ 1 := constantI S_ 1 1#1
  let main_v7 : IVec S_ 1 := (fun x v => Host.reduce IntOp.andi x v reducesTo_S1x131072x256_S_d0_1_2 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S131072x128 : Shape := ⟨2, ![131072, 128]⟩
abbrev S1x131072x256 : Shape := ⟨3, ![1, 131072, 256]⟩
abbrev S256x128 : Shape := ⟨2, ![256, 128]⟩
abbrev S256 : Shape := ⟨1, ![256]⟩
abbrev S768x256 : Shape := ⟨2, ![768, 256]⟩
abbrev S768 : Shape := ⟨1, ![768]⟩
abbrev S128x256 : Shape := ⟨2, ![128, 256]⟩
abbrev S256x768 : Shape := ⟨2, ![256, 768]⟩
abbrev S1x256 : Shape := ⟨2, ![1, 256]⟩
abbrev S512 : Shape := ⟨1, ![512]⟩
abbrev S1x512 : Shape := ⟨2, ![1, 512]⟩
abbrev S131072x256 : Shape := ⟨2, ![131072, 256]⟩
abbrev S2048x128 : Shape := ⟨2, ![2048, 128]⟩
abbrev S1x2048x256 : Shape := ⟨3, ![1, 2048, 256]⟩
abbrev S2048x256 : Shape := ⟨2, ![2048, 256]⟩
abbrev S256x512 : Shape := ⟨2, ![256, 512]⟩
abbrev S2048x512 : Shape := ⟨2, ![2048, 512]⟩
abbrev S256x256 : Shape := ⟨2, ![256, 256]⟩

abbrev nBuf : Space → Nat
  | .hbm => 25
  | .vmem => 13
  | .smem => 0
  | _ => 0

abbrev bufTy : (tb : Table) → Fin (tcTables nBuf tb) → BufTy
  | .hbm, ⟨0, _⟩ => ⟨S131072x128, .f32⟩
  | .hbm, ⟨1, _⟩ => ⟨S1x131072x256, .f32⟩
  | .hbm, ⟨2, _⟩ => ⟨S256x128, .f32⟩
  | .hbm, ⟨3, _⟩ => ⟨S256, .f32⟩
  | .hbm, ⟨4, _⟩ => ⟨S768x256, .f32⟩
  | .hbm, ⟨5, _⟩ => ⟨S768x256, .f32⟩
  | .hbm, ⟨6, _⟩ => ⟨S768, .f32⟩
  | .hbm, ⟨7, _⟩ => ⟨S768, .f32⟩
  | .hbm, ⟨8, _⟩ => ⟨S128x256, .f32⟩
  | .hbm, ⟨9, _⟩ => ⟨S128x256, .bf16⟩
  | .hbm, ⟨10, _⟩ => ⟨S256x768, .f32⟩
  | .hbm, ⟨11, _⟩ => ⟨S256x768, .bf16⟩
  | .hbm, ⟨12, _⟩ => ⟨S256x768, .f32⟩
  | .hbm, ⟨13, _⟩ => ⟨S256x768, .bf16⟩
  | .hbm, ⟨14, _⟩ => ⟨S1x256, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S256, .f32⟩
  | .hbm, ⟨20, _⟩ => ⟨S1x256, .f32⟩
  | .hbm, ⟨21, _⟩ => ⟨S256, .f32⟩
  | .hbm, ⟨22, _⟩ => ⟨S1x256, .f32⟩
  | .hbm, ⟨23, _⟩ => ⟨S131072x256, .f32⟩
  | .hbm, ⟨24, _⟩ => ⟨S1x131072x256, .f32⟩
  | .local _ .vmem, ⟨0, _⟩ => ⟨S2048x128, .f32⟩
  | .local _ .vmem, ⟨1, _⟩ => ⟨S2048x128, .f32⟩
  | .local _ .vmem, ⟨2, _⟩ => ⟨S1x2048x256, .f32⟩
  | .local _ .vmem, ⟨3, _⟩ => ⟨S1x2048x256, .f32⟩
  | .local _ .vmem, ⟨4, _⟩ => ⟨S128x256, .bf16⟩
  | .local _ .vmem, ⟨5, _⟩ => ⟨S1x256, .f32⟩
  | .local _ .vmem, ⟨6, _⟩ => ⟨S256x768, .bf16⟩
  | .local _ .vmem, ⟨7, _⟩ => ⟨S256x768, .bf16⟩
  | .local _ .vmem, ⟨8, _⟩ => ⟨S1x512, .f32⟩
  | .local _ .vmem, ⟨9, _⟩ => ⟨S1x256, .f32⟩
  | .local _ .vmem, ⟨10, _⟩ => ⟨S1x256, .f32⟩
  | .local _ .vmem, ⟨11, _⟩ => ⟨S2048x256, .f32⟩
  | .local _ .vmem, ⟨12, _⟩ => ⟨S2048x256, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S256x128_S128x256_1_0 : S256x128.Transposes [1, 0] S128x256
  bitsLt_bf16_f32 : FTy.bits .bf16 < FTy.bits .f32
  transposes_S768x256_S256x768_1_0 : S768x256.Transposes [1, 0] S256x768
  shapeCasts_S256_S1x256 : S256.ShapeCasts S1x256
  slices_S768_S512_0 : S768.Slices ![0] S512
  shapeCasts_S512_S1x512 : S512.ShapeCasts S1x512
  slices_S768_S256_512 : S768.Slices ![512] S256
  inb_S2048x128_S2048x128_0_0 : ∀ a, (![0, 0] : Fin 2 → Nat) a + S2048x128.size a ≤ S2048x128.size a
  h_S2048x128 : 0 < S2048x128.numel
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x768_S256x512_0_0 : ∀ a, (![0, 0] : Fin 2 → Nat) a + S256x512.size a ≤ S256x768.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x256 : S2048x512.Slices ![0, 0] S2048x256
  slices_S2048x512_o0_256_S2048x256 : S2048x512.Slices ![0, 256] S2048x256
  inb_S256x768_S256x256_0_512 : ∀ a, (![0, 512] : Fin 2 → Nat) a + S256x256.size a ≤ S256x768.size a
  h_S256x256 : 0 < S256x256.numel
  shapeCasts_S256x256_S256x256 : S256x256.ShapeCasts S256x256
  inb_S2048x256_S2048x256_0_0 : ∀ a, (![0, 0] : Fin 2 → Nat) a + S2048x256.size a ≤ S2048x256.size a
  h_S2048x256 : 0 < S2048x256.numel
  bcast_S131072x256_S1x131072x256_1_2 : S131072x256.BroadcastsInDim S1x131072x256 (![1, 2] : Fin 2 → Fin S1x131072x256.rank)
  dot_S2048x128_S128x256_S2048x256_1_0_0_1_n_n_wf : DotDims.WF S2048x128 S128x256 S2048x256 [1] [0] [0] [1] [] []
  dot_S2048x256_S256x512_S2048x512_1_0_0_1_n_n_wf : DotDims.WF S2048x256 S256x512 S2048x512 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S1x131072x256.size a
  hwx0_1 : ∀ i : grid0.Coords, EltTy.bits .f32 = 32 ∨ (Rect.block (s := S1x131072x256) S1x2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S256x768.size a
  hwx0_5 : ∀ i : grid0.Coords, EltTy.bits .bf16 = 32 ∨ (Rect.block (s := S256x768) S256x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S131072x256.size a
  hwx0_9 : ∀ i : grid0.Coords, EltTy.bits .f32 = 32 ∨ (Rect.block (s := S131072x256) S2048x256.size (cc0_transform_9 i) (hinb0_9 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x128 : Shape := ⟨2, ![131072, 128]⟩
abbrev S1x131072x256 : Shape := ⟨3, ![1, 131072, 256]⟩
abbrev S256x128 : Shape := ⟨2, ![256, 128]⟩
abbrev S256 : Shape := ⟨1, ![256]⟩
abbrev S768x256 : Shape := ⟨2, ![768, 256]⟩
abbrev S768 : Shape := ⟨1, ![768]⟩
abbrev S128x256 : Shape := ⟨2, ![128, 256]⟩
abbrev S131072x256 : Shape := ⟨2, ![131072, 256]⟩
abbrev S1x256 : Shape := ⟨2, ![1, 256]⟩
abbrev S_ : Shape := ⟨0, ![]⟩
abbrev S256x768 : Shape := ⟨2, ![256, 768]⟩
abbrev S131072x768 : Shape := ⟨2, ![131072, 768]⟩
abbrev S1x768 : Shape := ⟨2, ![1, 768]⟩

abbrev nBuf : Space → Nat
  | .hbm => 61
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S1x131072x256, .f32⟩
  | .hbm, ⟨2, _⟩ => ⟨S256x128, .f32⟩
  | .hbm, ⟨3, _⟩ => ⟨S256, .f32⟩
  | .hbm, ⟨4, _⟩ => ⟨S768x256, .f32⟩
  | .hbm, ⟨5, _⟩ => ⟨S768x256, .f32⟩
  | .hbm, ⟨6, _⟩ => ⟨S768, .f32⟩
  | .hbm, ⟨7, _⟩ => ⟨S768, .f32⟩
  | .hbm, ⟨8, _⟩ => ⟨S128x256, .f32⟩
  | .hbm, ⟨9, _⟩ => ⟨S131072x256, .f32⟩
  | .hbm, ⟨10, _⟩ => ⟨S1x256, .f32⟩
  | .hbm, ⟨11, _⟩ => ⟨S131072x256, .f32⟩
  | .hbm, ⟨12, _⟩ => ⟨S131072x256, .f32⟩
  | .hbm, ⟨13, _⟩ => ⟨S_, .f32⟩
  | .hbm, ⟨14, _⟩ => ⟨S131072x256, .f32⟩
  | .hbm, ⟨15, _⟩ => ⟨S131072x256, .f32⟩
  | .hbm, ⟨16, _⟩ => ⟨S131072x256, .f32⟩
  | .hbm, ⟨17, _⟩ => ⟨S256x768, .f32⟩
  | .hbm, ⟨18, _⟩ => ⟨S131072x768, .f32⟩
  | .hbm, ⟨19, _⟩ => ⟨S1x768, .f32⟩
  | .hbm, ⟨20, _⟩ => ⟨S131072x768, .f32⟩
  | .hbm, ⟨21, _⟩ => ⟨S131072x768, .f32⟩
  | .hbm, ⟨22, _⟩ => ⟨S256x768, .f32⟩
  | .hbm, ⟨23, _⟩ => ⟨S131072x768, .f32⟩
  | .hbm, ⟨24, _⟩ => ⟨S1x768, .f32⟩
  | .hbm, ⟨25, _⟩ => ⟨S131072x768, .f32⟩
  | .hbm, ⟨26, _⟩ => ⟨S131072x768, .f32⟩
  | .hbm, ⟨27, _⟩ => ⟨S131072x256, .f32⟩
  | .hbm, ⟨28, _⟩ => ⟨S131072x256, .f32⟩
  | .hbm, ⟨29, _⟩ => ⟨S131072x256, .f32⟩
  | .hbm, ⟨30, _⟩ => ⟨S131072x256, .f32⟩
  | .hbm, ⟨31, _⟩ => ⟨S131072x256, .f32⟩
  | .hbm, ⟨32, _⟩ => ⟨S131072x256, .f32⟩
  | .hbm, ⟨33, _⟩ => ⟨S131072x256, .f32⟩
  | .hbm, ⟨34, _⟩ => ⟨S131072x256, .f32⟩
  | .hbm, ⟨35, _⟩ => ⟨S131072x256, .f32⟩
  | .hbm, ⟨36, _⟩ => ⟨S_, .f32⟩
  | .hbm, ⟨37, _⟩ => ⟨S131072x256, .f32⟩
  | .hbm, ⟨38, _⟩ => ⟨S131072x256, .f32⟩
  | .hbm, ⟨39, _⟩ => ⟨S_, .f32⟩
  | .hbm, ⟨40, _⟩ => ⟨S131072x256, .f32⟩
  | .hbm, ⟨41, _⟩ => ⟨S131072x256, .f32⟩
  | .hbm, ⟨42, _⟩ => ⟨S131072x256, .f32⟩
  | .hbm, ⟨43, _⟩ => ⟨S131072x256, .f32⟩
  | .hbm, ⟨44, _⟩ => ⟨S131072x256, .f32⟩
  | .hbm, ⟨45, _⟩ => ⟨S_, .f32⟩
  | .hbm, ⟨46, _⟩ => ⟨S131072x256, .f32⟩
  | .hbm, ⟨47, _⟩ => ⟨S131072x256, .f32⟩
  | .hbm, ⟨48, _⟩ => ⟨S_, .f32⟩
  | .hbm, ⟨49, _⟩ => ⟨S131072x256, .f32⟩
  | .hbm, ⟨50, _⟩ => ⟨S131072x256, .f32⟩
  | .hbm, ⟨51, _⟩ => ⟨S131072x256, .f32⟩
  | .hbm, ⟨52, _⟩ => ⟨S131072x256, .f32⟩
  | .hbm, ⟨53, _⟩ => ⟨S131072x256, .f32⟩
  | .hbm, ⟨54, _⟩ => ⟨S_, .f32⟩
  | .hbm, ⟨55, _⟩ => ⟨S131072x256, .f32⟩
  | .hbm, ⟨56, _⟩ => ⟨S131072x256, .f32⟩
  | .hbm, ⟨57, _⟩ => ⟨S131072x256, .f32⟩
  | .hbm, ⟨58, _⟩ => ⟨S131072x256, .f32⟩
  | .hbm, ⟨59, _⟩ => ⟨S131072x256, .f32⟩
  | .hbm, ⟨60, _⟩ => ⟨S1x131072x256, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  transposes_S256x128_S128x256_1_0 : S256x128.Transposes [1, 0] S128x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  shapeCasts_S1x131072x256_S131072x256 : S1x131072x256.ShapeCasts S131072x256
  transposes_S768x256_S256x768_1_0 : S768x256.Transposes [1, 0] S256x768
  bcast_S768_S1x768_1 : S768.BroadcastsInDim S1x768 (![1] : Fin 1 → Fin S1x768.rank)
  bcast_S1x768_S131072x768_0_1 : S1x768.BroadcastsInDim S131072x768 (![0, 1] : Fin 2 → Fin S131072x768.rank)
  slices_S131072x768_S131072x256_0_0 : S131072x768.Slices ![0, 0] S131072x256
  slices_S131072x768_S131072x256_0_256 : S131072x768.Slices ![0, 256] S131072x256
  slices_S131072x768_S131072x256_0_512 : S131072x768.Slices ![0, 512] S131072x256
  bcast_S131072x256_S1x131072x256_1_2 : S131072x256.BroadcastsInDim S1x131072x256 (![1, 2] : Fin 2 → Fin S1x131072x256.rank)
  dot_S131072x128_S128x256_S131072x256_1_0_0_1_n_n_wf : DotDims.WF S131072x128 S128x256 S131072x256 [1] [0] [0] [1] [] []
  dot_S131072x256_S256x768_S131072x768_1_0_0_1_n_n_wf : DotDims.WF S131072x256 S256x768 S131072x768 [1] [0] [0] [1] [] []

variable [Facts₀]

def dot_S131072x128_S128x256_S131072x256_1_0_0_1_n_n : DotDims S131072x128 S128x256 S131072x256 where
  lhsContracting := [1]
  rhsContracting := [0]
  lhsNonContracting := [0]
  rhsNonContracting := [1]
  lhsBatch := []
  rhsBatch := []
  wf := dot_S131072x128_S128x256_S131072x256_1_0_0_1_n_n_wf
def dot_S131072x256_S256x768_S131072x768_1_0_0_1_n_n : DotDims S131072x256 S256x768 S131072x768 where
  lhsContracting := [1]
  rhsContracting := [0]
  lhsNonContracting := [0]
  rhsNonContracting := [1]
  lhsBatch := []
  rhsBatch := []
  wf := dot_S131072x256_S256x768_S131072x768_1_0_0_1_n_n_wf

class Facts : Prop extends Facts₀ where

variable [Facts]
-- ==== Proof.KernelProducts.lean ====
/-
  The kernel body's products read at an index. At the ideal values each `tpu.matmul` into a zero accumulator is the
  plain sum over the contracted index of the operands' products: entry (p, c) of an [M, K] × [K, N] product is
  Σ k, l (p, k) · r (k, c). One lemma per product shape of the body: the projection [2048, 128] × [128, 256], the
  fused reset/update product [2048, 256] × [256, 512], and the candidate product [2048, 256] × [256, 256].
-/
import proofs.«412377_j52673478918341_3_alg».proof.Proof.Gen.KernelIdeal
import Idealize.ShloMosaic.Lib.ValueIdx
import Idealize.ShloMosaic.PureOps.Ideal.Laws

noncomputable section

namespace Cert.KernelIdeal.Body

open Cert.KernelIdeal Idealize.ShloMosaic Idealize.ShloMosaic.ValueIdx

theorem lhs_proj_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs_proj_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhs_proj_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhs_proj_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

theorem lhs_rz_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_rz_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs_rz_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs_rz_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

theorem lhs_cand_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_cand_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_cand_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_cand_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The projection product at (p, c). -/
theorem proj_at (l : FVec Ideal S2048x128 .bf16) (r : FVec Ideal S128x256 .bf16) (p : Fin 2048) (c : Fin 256) :
    matmul dot_S2048x128_S128x256_S2048x256_1_0_0_1_n_n none l r (constant S2048x256 .f32 0x00000000#32) (ix2 p c) = ∑ k : Fin 128, l (ix2 p k) * r (ix2 k c) := by
  simp only [matmul]
  rw [Ideal.matmul_constant_zero_apply, ← Equiv.sum_comp (ValueIdx.contrEquiv1 dot_S2048x128_S128x256_S2048x256_1_0_0_1_n_n 128 rfl rfl).symm]
  refine Finset.sum_congr rfl fun k _ => ?_
  have hk := ValueIdx.contrEquiv1_symm_val dot_S2048x128_S128x256_S2048x256_1_0_0_1_n_n 128 rfl rfl k
  have el : dot_S2048x128_S128x256_S2048x256_1_0_0_1_n_n.lhsIdx (ix2 p c) ((ValueIdx.contrEquiv1 dot_S2048x128_S128x256_S2048x256_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S2048x128_S128x256_S2048x256_1_0_0_1_n_n.rhsIdx (ix2 p c) ((ValueIdx.contrEquiv1 dot_S2048x128_S128x256_S2048x256_1_0_0_1_n_n 128 rfl rfl).symm k) = ix2 k c := funext fun a => Fin.ext (by
    match a with
    | ⟨0, _⟩ => exact (rhs_proj_0 _ _).trans hk
    | ⟨1, _⟩ => exact rhs_proj_1 _ _)
  rw [el, er]

/-- A fused reset/update product at (p, c). -/
theorem rz_at (l : FVec Ideal S2048x256 .bf16) (r : FVec Ideal S256x512 .bf16) (p : Fin 2048) (c : Fin 512) :
    matmul dot_S2048x256_S256x512_S2048x512_1_0_0_1_n_n none l r (constant S2048x512 .f32 0x00000000#32) (ix2 p c) = ∑ k : Fin 256, l (ix2 p k) * r (ix2 k c) := by
  simp only [matmul]
  rw [Ideal.matmul_constant_zero_apply, ← Equiv.sum_comp (ValueIdx.contrEquiv1 dot_S2048x256_S256x512_S2048x512_1_0_0_1_n_n 256 rfl rfl).symm]
  refine Finset.sum_congr rfl fun k _ => ?_
  have hk := ValueIdx.contrEquiv1_symm_val dot_S2048x256_S256x512_S2048x512_1_0_0_1_n_n 256 rfl rfl k
  have el : dot_S2048x256_S256x512_S2048x512_1_0_0_1_n_n.lhsIdx (ix2 p c) ((ValueIdx.contrEquiv1 dot_S2048x256_S256x512_S2048x512_1_0_0_1_n_n 256 rfl rfl).symm k) = ix2 p k := funext fun a => Fin.ext (by
    match a with
    | ⟨0, _⟩ => exact lhs_rz_0 _ _
    | ⟨1, _⟩ => exact (lhs_rz_1 _ _).trans hk)
  have er : dot_S2048x256_S256x512_S2048x512_1_0_0_1_n_n.rhsIdx (ix2 p c) ((ValueIdx.contrEquiv1 dot_S2048x256_S256x512_S2048x512_1_0_0_1_n_n 256 rfl rfl).symm k) = ix2 k c := funext fun a => Fin.ext (by
    match a with
    | ⟨0, _⟩ => exact (rhs_rz_0 _ _).trans hk
    | ⟨1, _⟩ => exact rhs_rz_1 _ _)
  rw [el, er]

/-- A candidate product at (p, c). -/
theorem cand_at (l : FVec Ideal S2048x256 .bf16) (r : FVec Ideal S256x256 .bf16) (p : Fin 2048) (c : Fin 256) :
    matmul dot_S2048x256_S256x256_S2048x256_1_0_0_1_n_n none l r (constant S2048x256 .f32 0x00000000#32) (ix2 p c) = ∑ k : Fin 256, l (ix2 p k) * r (ix2 k c) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p c) ((ValueIdx.contrEquiv1 dot_S2048x256_S256x256_S2048x256_1_0_0_1_n_n 256 rfl rfl).symm k) = ix2 p k := funext fun a => Fin.ext (by
    match a with
    | ⟨0, _⟩ => exact lhs_cand_0 _ _
    | ⟨1, _⟩ => exact (lhs_cand_1 _ _).trans hk)
  have er : dot_S2048x256_S256x256_S2048x256_1_0_0_1_n_n.rhsIdx (ix2 p c) ((ValueIdx.contrEquiv1 dot_S2048x256_S256x256_S2048x256_1_0_0_1_n_n 256 rfl rfl).symm k) = ix2 k c := funext fun a => Fin.ext (by
    match a with
    | ⟨0, _⟩ => exact (rhs_cand_0 _ _).trans hk
    | ⟨1, _⟩ => exact rhs_cand_1 _ _)
  rw [el, er]

end Cert.KernelIdeal.Body

end
-- ==== Proof.Spec.lean ====
/-
  A single-layer GRU cell on a ReLU input projection, row by row, over the extended reals.

  For one batch row with input `x : Fin 128 → EReal` and previous hidden state `h : Fin 256 → EReal`:
    p k      = max (Σ i, x i · Wp k i + bp k) 0                            (projection, ReLU)
    gi c     = Σ k, p k · W_ih c k,        gh c = Σ k, h k · W_hh c k      (c ranges over the 768 stacked gate rows)
    r j      = σ ((gi j + gh j) + (b_ih j + b_hh j))                        (rows 0 … 255)
    z j      = σ ((gi (256 + j) + gh (256 + j)) + (b_ih (256 + j) + b_hh (256 + j)))
    n j      = tanh ((gi (512 + j) + b_ih (512 + j)) + r j · (gh (512 + j) + b_hh (512 + j)))
    h' j     = (1 − z j) · n j + z j · h j
  with σ u = 1 / (1 + e^(−u)) and the conventions of the extended reals at the infinities.

  `cellWith` is the cell over ONE combined bias for the reset and update gates (512 entries) and the two candidate
  biases apart; `cell` is it at the sums `b_ih c + b_hh c` and the last 256 entries of each bias vector.

  The reset and update gates are written with the two matrix products added first and the biases second. Adding each
  bias to its own product first gives the same extended real, because addition on the extended reals is commutative
  and associative (no finiteness is needed): `gate_regroup`.
-/
import Idealize.ShloMosaic.PureOps.Ideal
import Idealize.ShloMosaic.PureOps.Ideal.Laws
import Idealize.ShloMosaic.Lib.IdealHost
import Idealize.ShloMosaic.Lib.ValueIdx

noncomputable section

namespace Cert.GruCell

open Idealize.ShloMosaic Idealize.ShloMosaic.ValueIdx

/-- Row `j` of the stacked gate matrices: the reset block. -/
def rowR (j : Fin 256) : Fin 768 := ⟨j.val, by have := j.isLt; omega⟩
/-- Row `256 + j`: the update block. -/
def rowZ (j : Fin 256) : Fin 768 := ⟨256 + j.val, by have := j.isLt; omega⟩
/-- Row `512 + j`: the candidate block. -/
def rowN (j : Fin 256) : Fin 768 := ⟨512 + j.val, by have := j.isLt; omega⟩
/-- One of the first 512 rows, among all 768. -/
def wide (c : Fin 512) : Fin 768 := ⟨c.val, by have := c.isLt; omega⟩
/-- Entry `j` of a 512-vector: the reset half. -/
def colR (j : Fin 256) : Fin 512 := ⟨j.val, by have := j.isLt; omega⟩
/-- Entry `256 + j`: the update half. -/
def colZ (j : Fin 256) : Fin 512 := ⟨256 + j.val, by have := j.isLt; omega⟩

/-- The input projection followed by ReLU, one row. -/
def proj (x : Fin 128 → EReal) (wp : Fin 256 → Fin 128 → EReal) (bp : Fin 256 → EReal) (k : Fin 256) : EReal :=
  max (∑ i : Fin 128, x i * wp k i + bp k) 0

/-- A row of a stacked gate matrix applied to a 256-vector. -/
def lin (v : Fin 256 → EReal) (w : Fin 768 → Fin 256 → EReal) (c : Fin 768) : EReal :=
  ∑ k : Fin 256, v k * w c k

/-- A sigmoid gate on row `c`: the two products added, then the bias. -/
def gate (p h : Fin 256 → EReal) (wih whh : Fin 768 → Fin 256 → EReal) (c : Fin 768) (bias : EReal) : EReal :=
  Ideal.logistic ((lin p wih c + lin h whh c) + bias)

/-- The new hidden state at column `j` of one row, over a combined reset/update bias and the two candidate biases. -/
def cellWith (x : Fin 128 → EReal) (h : Fin 256 → EReal) (wp : Fin 256 → Fin 128 → EReal) (bp : Fin 256 → EReal)
    (wih whh : Fin 768 → Fin 256 → EReal) (brz : Fin 512 → EReal) (bin bhn : Fin 256 → EReal) (j : Fin 256) : EReal :=
  (1 - gate (proj x wp bp) h wih whh (rowZ j) (brz (colZ j)))
      * Ideal.tanh ((lin (proj x wp bp) wih (rowN j) + bin j)
          + gate (proj x wp bp) h wih whh (rowR j) (brz (colR j)) * (lin h whh (rowN j) + bhn j))
    + gate (proj x wp bp) h wih whh (rowZ j) (brz (colZ j)) * h j

/-- The new hidden state at column `j` of one row. -/
def cell (x : Fin 128 → EReal) (h : Fin 256 → EReal) (wp : Fin 256 → Fin 128 → EReal) (bp : Fin 256 → EReal)
    (wih whh : Fin 768 → Fin 256 → EReal) (bih bhh : Fin 768 → EReal) (j : Fin 256) : EReal :=
  cellWith x h wp bp wih whh (fun c => bih (wide c) + bhh (wide c)) (fun j => bih (rowN j)) (fun j => bhh (rowN j)) j

/-- Each bias added to its own product first, and the sigmoid spelt as a quotient: the same gate. -/
theorem gate_regroup (p h : Fin 256 → EReal) (wih whh : Fin 768 → Fin 256 → EReal) (c : Fin 768) (b₁ b₂ : EReal) :
    Ideal.div 1 (1 + Ideal.exp (-((lin p wih c + b₁) + (lin h whh c + b₂)))) = gate p h wih whh c (b₁ + b₂) := by
  unfold gate Ideal.logistic
  rw [add_add_add_comm]

/-- THE RESULT as one array: entry (b, j) is the cell of row `b` of the input and of the previous hidden state
    (whose leading axis has the one entry 0), at column `j`. -/
def gru (a0 : Vec Ideal ⟨2, ![131072, 128]⟩ .f32) (a1 : Vec Ideal ⟨3, ![1, 131072, 256]⟩ .f32)
    (a2 : Vec Ideal ⟨2, ![256, 128]⟩ .f32) (a3 : Vec Ideal ⟨1, ![256]⟩ .f32) (a4 a5 : Vec Ideal ⟨2, ![768, 256]⟩ .f32)
    (a6 a7 : Vec Ideal ⟨1, ![768]⟩ .f32) : Vec Ideal ⟨2, ![131072, 256]⟩ .f32 :=
  fun i => cell (fun a => a0 (ix2 (i 0) a)) (fun k => a1 (ix3 (0 : Fin 1) (i 0) k)) (fun k a => a2 (ix2 k a))
    (fun k => a3 (ix1 k)) (fun c k => a4 (ix2 c k)) (fun c k => a5 (ix2 c k)) (fun c => a6 (ix1 c)) (fun c => a7 (ix1 c)) (i 1)

theorem gru_apply (a0 : Vec Ideal ⟨2, ![131072, 128]⟩ .f32) (a1 : Vec Ideal ⟨3, ![1, 131072, 256]⟩ .f32)
    (a2 : Vec Ideal ⟨2, ![256, 128]⟩ .f32) (a3 : Vec Ideal ⟨1, ![256]⟩ .f32) (a4 a5 : Vec Ideal ⟨2, ![768, 256]⟩ .f32)
    (a6 a7 : Vec Ideal ⟨1, ![768]⟩ .f32) (b : Fin 131072) (j : Fin 256) :
    gru a0 a1 a2 a3 a4 a5 a6 a7 (ix2 b j)
      = cell (fun a => a0 (ix2 b a)) (fun k => a1 (ix3 (0 : Fin 1) b k)) (fun k a => a2 (ix2 k a))
          (fun k => a3 (ix1 k)) (fun c k => a4 (ix2 c k)) (fun c k => a5 (ix2 c k)) (fun c => a6 (ix1 c)) (fun c => a7 (ix1 c)) j := rfl

end Cert.GruCell

end
-- ==== Proof.KernelBody.lean ====
/-
  What one grid point of the kernel leaves in its output block, read at an index.

  The body loads a [2048, 128] block of the input, the matching [1, 2048, 256] block of the previous hidden state
  and the whole (transposed) weights and (reshaped) biases, and stores one [2048, 256] block. Entry (p, q) of what
  it stores is the GRU cell of `Spec.lean` applied to row `p` of the two blocks: the first product with its bias and
  ReLU is the projection; the fused product over columns 0 … 511 of the two transposed gate matrices, plus the
  combined bias, gives the reset gate at column q and the update gate at column 256 + q; the products over columns
  512 … 767 give the candidate; the blend is the last line. Changes of float format are the identity at the ideal
  values, shape casts to the same shape are the identity, and the cast [1, 2048, 256] → [2048, 256] drops the unit
  axis.
-/
import proofs.«412377_j52673478918341_3_alg».proof.Proof.Gen.KernelIdeal.Frame
import proofs.«412377_j52673478918341_3_alg».proof.Proof.KernelProducts
import proofs.«412377_j52673478918341_3_alg».proof.Proof.Spec
import Idealize.ShloMosaic.Lib.Pipeline.Value
import Idealize.ShloMosaic.Lib.ValueLayout
import Idealize.ShloMosaic.Lib.IdealHost

noncomputable section

namespace Cert.KernelIdeal.Body

open Cert.KernelIdeal Cert.KernelIdeal.Gen Idealize.ShloMosaic Idealize.ShloMosaic.ValueIdx Cert.GruCell

theorem zero2 : (![0, 0] : Fin 2 → Nat) = fun _ => 0 := funext fun a => by fin_cases a <;> rfl
theorem zero3 : (![0, 0, 0] : Fin 3 → Nat) = fun _ => 0 := funext fun a => by fin_cases a <;> rfl

/-! ## The two partial loads of a transposed gate matrix -/

/-- Columns 0 … 511 of a [256, 768] matrix: local index (k, c) is (k, c) of the whole. -/
theorem idx_cols_rz (k : Fin 256) (c : Fin 512) : r0_4.idx (ix2 k c) = ix2 k (wide c) := by
  refine funext fun a => Fin.ext ?_
  match a with
  | ⟨0, _⟩ => show 0 + 1 * k.val = k.val; omega
  | ⟨1, _⟩ => show 0 + 1 * c.val = c.val; omega

/-- Columns 512 … 767 of a [256, 768] matrix: local index (k, j) is (k, 512 + j) of the whole. -/
theorem idx_cols_n (k : Fin 256) (j : Fin 256) : r0_6.idx (ix2 k j) = ix2 k (rowN j) := by
  refine funext fun a => Fin.ext ?_
  match a with
  | ⟨0, _⟩ => show 0 + 1 * k.val = k.val; omega
  | ⟨1, _⟩ => show 512 + 1 * j.val = 512 + j.val; omega

/-! ## The payloads at an index -/

/-- The vector `tanh` acts entry by entry. -/
theorem tanh_at {s : Shape} {φ : FTy} (a : FVec Ideal s φ) (i : s.Idx) : tanh a i = Ideal.tanh (a i) := rfl

variable (v0 : Vec Ideal S2048x128 .f32) (v1 : Vec Ideal S1x2048x256 .f32) (v4 : Vec Ideal S128x256 .bf16)
  (v7 : Vec Ideal S1x256 .f32) (v15 v18 : Vec Ideal S256x512 .bf16) (v22 : Vec Ideal S1x512 .f32)
  (v30 v37 : Vec Ideal S256x256 .bf16) (v33 v40 : Vec Ideal S1x256 .f32)

/-- The hidden-state block with its unit axis dropped. -/
theorem pay2_at (p : Fin 2048) (k : Fin 256) : k0_pay2 v1 (ix2 p k) = v1 (ix3 (0 : Fin 1) p k) := by
  unfold k0_pay2
  exact shapeCast_1ab_ab_apply v1 _ p k

/-- The same after the (ideal) change of format. -/
theorem pay4_at (p : Fin 2048) (k : Fin 256) : k0_pay4 v1 (ix2 p k) = v1 (ix3 (0 : Fin 1) p k) := by
  unfold k0_pay4
  exact pay2_at v1 p k

/-- The projection with its ReLU. -/
theorem pay3_at (p : Fin 2048) (k : Fin 256) :
    k0_pay3 v0 v4 v7 (ix2 p k) = proj (fun i => v0 (ix2 p i)) (fun k i => v4 (ix2 i k)) (fun k => v7 (ix2 (0 : Fin 1) k)) k := by
  unfold k0_pay3
  rw [shapeCast_self, shapeCast_self]
  simp only [truncf_apply, maximumf_apply, addf_apply, broadcast_apply, proj_at, broadcastTo_1b_ab_apply]
  unfold proj
  simp only [Ideal.maximumf_def, Ideal.addf_def, Ideal.ofBits_def, Ideal.ofBits_zero_f32]

/-- The fused reset/update pre-activation at (p, c), c among the first 512 stacked columns: both products, then
    the combined bias. -/
theorem pay5_at (p : Fin 2048) (c : Fin 512) :
    k0_pay5 v0 v1 v4 v7 v15 v18 v22 (ix2 p c)
      = ((∑ k : Fin 256, proj (fun i => v0 (ix2 p i)) (fun k i => v4 (ix2 i k)) (fun k => v7 (ix2 (0 : Fin 1) k)) k * v15 (ix2 k c))
          + ∑ k : Fin 256, v1 (ix3 (0 : Fin 1) p k) * v18 (ix2 k c)) + v22 (ix2 (0 : Fin 1) c) := by
  unfold k0_pay5
  rw [shapeCast_self, shapeCast_self, shapeCast_self]
  simp only [addf_apply, rz_at, broadcastTo_1b_ab_apply, pay3_at, pay4_at]

/-- The reset gate at (p, j). -/
theorem pay6_at (p : Fin 2048) (j : Fin 256) :
    k0_pay6 v0 v1 v4 v7 v15 v18 v22 (ix2 p j) = Ideal.logistic (k0_pay5 v0 v1 v4 v7 v15 v18 v22 (ix2 p (colR j))) := by
  unfold k0_pay6
  show FloatOps.logistic (extractStridedSlice S2048x256 ![0, 0] (k0_pay5 v0 v1 v4 v7 v15 v18 v22) slices_S2048x512_o0_0_S2048x256 (ix2 p j)) = _
  rw [slice2_axis1_apply 0 (k0_pay5 v0 v1 v4 v7 v15 v18 v22) slices_S2048x512_o0_0_S2048x256 p j (colR j) (by show j.val = 0 + j.val; omega)]
  rfl

/-- The update gate at (p, j). -/
theorem pay7_at (p : Fin 2048) (j : Fin 256) :
    k0_pay7 v0 v1 v4 v7 v15 v18 v22 (ix2 p j) = Ideal.logistic (k0_pay5 v0 v1 v4 v7 v15 v18 v22 (ix2 p (colZ j))) := by
  unfold k0_pay7
  show FloatOps.logistic (extractStridedSlice S2048x256 ![0, 256] (k0_pay5 v0 v1 v4 v7 v15 v18 v22) slices_S2048x512_o0_256_S2048x256 (ix2 p j)) = _
  rw [slice2_axis1_apply 256 (k0_pay5 v0 v1 v4 v7 v15 v18 v22) slices_S2048x512_o0_256_S2048x256 p j (colZ j) (by show 256 + j.val = 256 + j.val; rfl)]
  rfl

/-- The input side of the candidate, before its bias, at (p, j). -/
theorem pay8_at (p : Fin 2048) (j : Fin 256) :
    k0_pay8 v0 v4 v7 v30 (ix2 p j)
      = ∑ k : Fin 256, proj (fun i => v0 (ix2 p i)) (fun k i => v4 (ix2 i k)) (fun k => v7 (ix2 (0 : Fin 1) k)) k * v30 (ix2 k j) := by
  unfold k0_pay8
  rw [shapeCast_self]
  simp only [cand_at, pay3_at]

/-- A bias row cast to its own shape. -/
theorem pay9_eq : k0_pay9 v33 = v33 := by
  unfold k0_pay9
  exact shapeCast_self _ _

/-- The blend at (p, j), over the values the body computed before it. -/
theorem pay1_at (v2 : FVec Ideal S2048x256 .f32) (v14 : FVec Ideal S2048x256 .bf16) (v27 v29 v32 : FVec Ideal S2048x256 .f32)
    (v34 : FVec Ideal S1x256 .f32) (p : Fin 2048) (j : Fin 256) :
    k0_pay1 v2 v14 v27 v29 v32 v34 v37 v40 (ix2 p j)
      = (1 - v29 (ix2 p j))
          * Ideal.tanh ((v32 (ix2 p j) + v34 (ix2 (0 : Fin 1) j))
              + v27 (ix2 p j) * ((∑ k : Fin 256, v14 (ix2 p k) * v37 (ix2 k j)) + v40 (ix2 (0 : Fin 1) j)))
        + v29 (ix2 p j) * v2 (ix2 p j) := by
  unfold k0_pay1
  rw [shapeCast_self, shapeCast_self]
  simp only [tanh_at, addf_apply, mulf_apply, subf_apply, broadcast_apply, cand_at, broadcastTo_1b_ab_apply,
    Ideal.ofBits_def, Ideal.ofBits_one_f32]

/-! ## The stored block at an index -/

/-- WHAT THE BODY STORES at (p, q): the GRU cell of row `p` of the input blocks, over the transposed weights, the
    combined reset/update bias and the two candidate biases. -/
theorem out_at (x0 : Vec Ideal S2048x128 .f32) (x1 : Vec Ideal S1x2048x256 .f32) (x2 : Vec Ideal S128x256 .bf16)
    (x3 : Vec Ideal S1x256 .f32) (x4 x5 : Vec Ideal S256x768 .bf16) (x6 : Vec Ideal S1x512 .f32) (x7 x8 : Vec Ideal S1x256 .f32)
    (p : Fin 2048) (q : Fin 256) :
    out0_9 x0 x1 x2 x3 x4 x5 x6 x7 x8 (ix2 p q)
      = cellWith (fun i => x0 (ix2 p i)) (fun k => x1 (ix3 (0 : Fin 1) p k)) (fun k i => x2 (ix2 i k)) (fun k => x3 (ix2 (0 : Fin 1) k))
          (fun c k => x4 (ix2 k c)) (fun c k => x5 (ix2 k c)) (fun c => x6 (ix2 (0 : Fin 1) c))
          (fun j => x7 (ix2 (0 : Fin 1) j)) (fun j => x8 (ix2 (0 : Fin 1) j)) q := by
  unfold out0_9
  rw [View.canon_unit_zero zero2]
  simp only [View.ld_unit_zero (S := S2048x128) zero2, View.ld_unit_zero (S := S1x2048x256) zero3,
    View.ld_unit_zero (S := S128x256) zero2, View.ld_unit_zero (S := S1x256) zero2, View.ld_unit_zero (S := S1x512) zero2]
  rw [pay1_at, pay9_eq]
  simp only [pay2_at, pay4_at, pay6_at, pay7_at, pay8_at, pay5_at]
  simp only [View.ld, idx_cols_rz, idx_cols_n]
  rfl

end Cert.KernelIdeal.Body

end
-- ==== Proof.KernelValue.lean ====
/-
  From blocks to the whole array, and the line of @main after the region.

  Grid point `t` (of 64) stages rows 2048·t … 2048·t + 2047 of the input and of the previous hidden state, the whole
  transposed weights and reshaped biases, and writes back rows 2048·t … of the result. The host lines before the
  region make the staged weights and biases out of the arguments: a transposed matrix reads (k, c) at (c, k), a bias
  reshaped to one row reads (0, k) at k, the combined bias is the sum of the first 512 entries of the two gate biases,
  the candidate biases are their last 256 entries. So what point `t` writes back is block `t` of the array `gru` of
  `Spec.lean` of the arguments, the 64 blocks cover the 131072 rows, and the result array ends holding `gru`. The
  line after the region gives the second result: the first with a leading unit axis.
-/
import proofs.«412377_j52673478918341_3_alg».proof.Proof.Gen.KernelIdeal.Frame
import proofs.«412377_j52673478918341_3_alg».proof.Proof.KernelBody
import proofs.«412377_j52673478918341_3_alg».proof.Proof.Spec
import Idealize.ShloMosaic.Lib.Pipeline.Value
import Idealize.ShloMosaic.Lib.ValueLayout
import Idealize.ShloMosaic.Lib.StableHlo.Run

noncomputable section

namespace Cert.KernelIdeal.Whole

open Cert.KernelIdeal Cert.KernelIdeal.Gen Cert.KernelIdeal.Body Idealize.ShloMosaic Idealize.ShloMosaic.TcCoe Idealize.SL.Sem
open Idealize.ShloMosaic.ValueIdx Idealize.ShloMosaic.StableHlo Cert.GruCell
open Idealize.ShloMosaic.Pipeline (Dat)

variable (m : (ℓ : Loc nD τ sig) → Buf (Elt Ideal) ℓ) (ρ : Dev nD → PrngReg)

/-! ## What the host lines before the region leave in the staged arrays -/

/-- The projection matrix, transposed (and changed of format: the identity at the ideal values). -/
theorem V_wp (c : Dev nD) : (V m c main_v1 : S128x256.Idx → EReal)
    = truncf (F := Ideal) .bf16 (transpose S128x256 [1, 0] (m ((c.tc : Thread nD τ).loc main_arg2)) transposes_S256x128_S128x256_1_0) bitsLt_bf16_f32 := by
  show StableHlo.after hostOps0 (fun b => m (c, b)) (Proc.devRef .tc main_v1) = _
  after_results

/-- The input-side gate matrix, transposed. -/
theorem V_wih (c : Dev nD) : (V m c main_v3 : S256x768.Idx → EReal)
    = truncf (F := Ideal) .bf16 (transpose S256x768 [1, 0] (m ((c.tc : Thread nD τ).loc main_arg4)) transposes_S768x256_S256x768_1_0) bitsLt_bf16_f32 := by
  show StableHlo.after hostOps0 (fun b => m (c, b)) (Proc.devRef .tc main_v3) = _
  after_results

/-- The hidden-side gate matrix, transposed. -/
theorem V_whh (c : Dev nD) : (V m c main_v5 : S256x768.Idx → EReal)
    = truncf (F := Ideal) .bf16 (transpose S256x768 [1, 0] (m ((c.tc : Thread nD τ).loc main_arg5)) transposes_S768x256_S256x768_1_0) bitsLt_bf16_f32 := by
  show StableHlo.after hostOps0 (fun b => m (c, b)) (Proc.devRef .tc main_v5) = _
  after_results

/-- The projection bias as one row. -/
theorem V_bp (c : Dev nD) : (V m c main_v6 : S1x256.Idx → EReal)
    = shapeCast S1x256 (m ((c.tc : Thread nD τ).loc main_arg3)) shapeCasts_S256_S1x256 := by
  show StableHlo.after hostOps0 (fun b => m (c, b)) (Proc.devRef .tc main_v6) = _
  after_results
  rfl

/-- The combined reset/update bias as one row: the first 512 entries of the two gate biases, added. -/
theorem V_brz (c : Dev nD) : (V m c main_v10 : S1x512.Idx → EReal)
    = shapeCast S1x512 (addf (F := Ideal) (φ := .f32) (extractStridedSlice S512 ![0] (m ((c.tc : Thread nD τ).loc main_arg6)) slices_S768_S512_0)
        (extractStridedSlice S512 ![0] (m ((c.tc : Thread nD τ).loc main_arg7)) slices_S768_S512_0)) shapeCasts_S512_S1x512 := by
  show StableHlo.after hostOps0 (fun b => m (c, b)) (Proc.devRef .tc main_v10) = _
  after_results
  rfl

/-- The input-side candidate bias as one row: the last 256 entries. -/
theorem V_bin (c : Dev nD) : (V m c main_v12 : S1x256.Idx → EReal)
    = shapeCast S1x256 (extractStridedSlice S256 ![512] (m ((c.tc : Thread nD τ).loc main_arg6)) slices_S768_S256_512) shapeCasts_S256_S1x256 := by
  show StableHlo.after hostOps0 (fun b => m (c, b)) (Proc.devRef .tc main_v12) = _
  after_results
  rfl

/-- The hidden-side candidate bias as one row: the last 256 entries. -/
theorem V_bhn (c : Dev nD) : (V m c main_v14 : S1x256.Idx → EReal)
    = shapeCast S1x256 (extractStridedSlice S256 ![512] (m ((c.tc : Thread nD τ).loc main_arg7)) slices_S768_S256_512) shapeCasts_S256_S1x256 := by
  show StableHlo.after hostOps0 (fun b => m (c, b)) (Proc.devRef .tc main_v14) = _
  after_results
  rfl

/-! ## The staged arrays at an index -/

/-- The two gate biases by their one coordinate. -/
abbrev bihAt (c : Dev nD) : Fin 768 → EReal := fun g => m ((c.tc : Thread nD τ).loc main_arg6) (ix1 g)
abbrev bhhAt (c : Dev nD) : Fin 768 → EReal := fun g => m ((c.tc : Thread nD τ).loc main_arg7) (ix1 g)

theorem wp_at (c : Dev nD) (i : Fin 128) (k : Fin 256) :
    (V m c main_v1 : S128x256.Idx → EReal) (ix2 i k) = m ((c.tc : Thread nD τ).loc main_arg2) (ix2 k i) := by
  rw [V_wp]
  exact transpose_ix2_apply (m ((c.tc : Thread nD τ).loc main_arg2)) transposes_S256x128_S128x256_1_0 i k

theorem wih_at (c : Dev nD) (k : Fin 256) (g : Fin 768) :
    (V m c main_v3 : S256x768.Idx → EReal) (ix2 k g) = m ((c.tc : Thread nD τ).loc main_arg4) (ix2 g k) := by
  rw [V_wih]
  exact transpose_ix2_apply (m ((c.tc : Thread nD τ).loc main_arg4)) transposes_S768x256_S256x768_1_0 k g

theorem whh_at (c : Dev nD) (k : Fin 256) (g : Fin 768) :
    (V m c main_v5 : S256x768.Idx → EReal) (ix2 k g) = m ((c.tc : Thread nD τ).loc main_arg5) (ix2 g k) := by
  rw [V_whh]
  exact transpose_ix2_apply (m ((c.tc : Thread nD τ).loc main_arg5)) transposes_S768x256_S256x768_1_0 k g

theorem bp_at (c : Dev nD) (k : Fin 256) :
    (V m c main_v6 : S1x256.Idx → EReal) (ix2 (0 : Fin 1) k) = m ((c.tc : Thread nD τ).loc main_arg3) (ix1 k) := by
  rw [V_bp]
  exact shapeCast_a_1a_apply _ _ 0 k

theorem brz_at (c : Dev nD) (g : Fin 512) :
    (V m c main_v10 : S1x512.Idx → EReal) (ix2 (0 : Fin 1) g)
      = bihAt m c (wide g) + bhhAt m c (wide g) := by
  rw [V_brz, shapeCast_a_1a_apply]
  have e6 : (extractStridedSlice S512 ![0] (m ((c.tc : Thread nD τ).loc main_arg6)) slices_S768_S512_0 (ix1 g) : EReal) = bihAt m c (wide g) :=
    extractStridedSlice_apply ![0] (m ((c.tc : Thread nD τ).loc main_arg6)) slices_S768_S512_0 (ix1 g) (ix1 (wide g))
      (fun a => match a with | ⟨0, _⟩ => by show g.val = 0 + g.val; omega)
  have e7 : (extractStridedSlice S512 ![0] (m ((c.tc : Thread nD τ).loc main_arg7)) slices_S768_S512_0 (ix1 g) : EReal) = bhhAt m c (wide g) :=
    extractStridedSlice_apply ![0] (m ((c.tc : Thread nD τ).loc main_arg7)) slices_S768_S512_0 (ix1 g) (ix1 (wide g))
      (fun a => match a with | ⟨0, _⟩ => by show g.val = 0 + g.val; omega)
  exact congrArg₂ (fun x y : EReal => x + y) e6 e7

theorem bin_at (c : Dev nD) (j : Fin 256) :
    (V m c main_v12 : S1x256.Idx → EReal) (ix2 (0 : Fin 1) j) = bihAt m c (rowN j) := by
  rw [V_bin, shapeCast_a_1a_apply]
  exact extractStridedSlice_apply ![512] (m ((c.tc : Thread nD τ).loc main_arg6)) slices_S768_S256_512 (ix1 j) (ix1 (rowN j))
    (fun a => match a with | ⟨0, _⟩ => rfl)

theorem bhn_at (c : Dev nD) (j : Fin 256) :
    (V m c main_v14 : S1x256.Idx → EReal) (ix2 (0 : Fin 1) j) = bhhAt m c (rowN j) := by
  rw [V_bhn, shapeCast_a_1a_apply]
  exact extractStridedSlice_apply ![512] (m ((c.tc : Thread nD τ).loc main_arg7)) slices_S768_S256_512 (ix1 j) (ix1 (rowN j))
    (fun a => match a with | ⟨0, _⟩ => rfl)

/-! ## The windows' blocks -/

/-- The printed index maps over the 64 points: the input, the hidden state and the result move one block of rows per
    point; every weight and bias window stays at its one block. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `p` of block `t` among the 131072 rows. -/
def rowOf (t : Fin cfg0.N) (p : Fin 2048) : Fin 131072 :=
  ⟨t.val * 2048 + p.val, by
    have ht : t.val < 64 := Nat.lt_of_lt_of_eq t.isLt (show cfg0.N = 64 from N_0)
    have := p.isLt
    omega⟩

/-- The input block at point `t`: rows 2048·t … of the input. -/
theorem x_at (c : Dev nD) (t : Fin cfg0.N) (p : Fin 2048) (i : Fin 128) :
    (iblk m c 0 t : Vec Ideal S2048x128 .f32) (ix2 p i) = m ((c.tc : Thread nD τ).loc main_arg0) (ix2 (rowOf t p) i) := by
  obtain ⟨e0, e1, -⟩ := idx_facts t
  unfold iblk
  rw [View.read_apply]
  show V m c main_arg0 _ = _
  rw [V_main_arg0]
  refine congrArg (m ((c.tc : Thread nD τ).loc main_arg0)) (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 128 + 1 * i.val = i.val; rw [e1]; omega

/-- The hidden-state block at point `t`: rows 2048·t … of the previous hidden state. -/
theorem h_at (c : Dev nD) (t : Fin cfg0.N) (p : Fin 2048) (k : Fin 256) :
    (iblk m c 1 t : Vec Ideal S1x2048x256 .f32) (ix3 (0 : Fin 1) p k)
      = m ((c.tc : Thread nD τ).loc main_arg1) (ix3 (0 : Fin 1) (rowOf t p) k) := by
  obtain ⟨-, -, e0, e1, e2, -⟩ := idx_facts t
  unfold iblk
  rw [View.read_apply]
  show V m c main_arg1 _ = _
  rw [V_main_arg1]
  refine congrArg (m ((c.tc : Thread nD τ).loc main_arg1)) (funext fun a => Fin.ext ?_)
  match a with
  | ⟨0, _⟩ => show win0_1.index t (0 : Fin 3) * 1 + 1 * 0 = 0; rw [e0]
  | ⟨1, _⟩ => show win0_1.index t (1 : Fin 3) * 2048 + 1 * p.val = t.val * 2048 + p.val; rw [e1]; omega
  | ⟨2, _⟩ => show win0_1.index t (2 : Fin 3) * 256 + 1 * k.val = k.val; rw [e2]; omega

/-- The staged projection matrix: entry (i, k) is W_p at (k, i). -/
theorem wpT_at (c : Dev nD) (t : Fin cfg0.N) (i : Fin 128) (k : Fin 256) :
    (iblk m c 2 t : Vec Ideal S128x256 .bf16) (ix2 i k) = m ((c.tc : Thread nD τ).loc main_arg2) (ix2 k i) := by
  obtain ⟨-, -, -, -, -, f0, f1, -⟩ := idx_facts t
  unfold iblk
  rw [View.read_apply]
  refine Eq.trans (congrArg (V m c main_v1 : S128x256.Idx → EReal) (funext fun a => Fin.ext ?_)) (wp_at m c i k)
  match a with
  | ⟨0, _⟩ => show win0_2.index t (0 : Fin 2) * 128 + 1 * i.val = i.val; rw [f0] <;> omega
  | ⟨1, _⟩ => show win0_2.index t (1 : Fin 2) * 256 + 1 * k.val = k.val; rw [f1] <;> omega

/-- The staged projection bias. -/
theorem bpRow_at (c : Dev nD) (t : Fin cfg0.N) (k : Fin 256) :
    (iblk m c 3 t : Vec Ideal S1x256 .f32) (ix2 (0 : Fin 1) k) = m ((c.tc : Thread nD τ).loc main_arg3) (ix1 k) := by
  obtain ⟨-, -, -, -, -, -, -, f0, f1, -⟩ := idx_facts t
  unfold iblk
  rw [View.read_apply]
  refine Eq.trans (congrArg (V m c main_v6 : S1x256.Idx → EReal) (funext fun a => Fin.ext ?_)) (bp_at m c k)
  match a with
  | ⟨0, _⟩ => show win0_3.index t (0 : Fin 2) * 1 + 1 * 0 = 0; rw [f0] <;> omega
  | ⟨1, _⟩ => show win0_3.index t (1 : Fin 2) * 256 + 1 * k.val = k.val; rw [f1] <;> omega

/-- The staged input-side gate matrix: entry (k, g) is W_ih at (g, k). -/
theorem wihT_at (c : Dev nD) (t : Fin cfg0.N) (k : Fin 256) (g : Fin 768) :
    (iblk m c 4 t : Vec Ideal S256x768 .bf16) (ix2 k g) = m ((c.tc : Thread nD τ).loc main_arg4) (ix2 g k) := by
  obtain ⟨-, -, -, -, -, -, -, -, -, f0, f1, -⟩ := idx_facts t
  unfold iblk
  rw [View.read_apply]
  refine Eq.trans (congrArg (V m c main_v3 : S256x768.Idx → EReal) (funext fun a => Fin.ext ?_)) (wih_at m c k g)
  match a with
  | ⟨0, _⟩ => show win0_4.index t (0 : Fin 2) * 256 + 1 * k.val = k.val; rw [f0] <;> omega
  | ⟨1, _⟩ => show win0_4.index t (1 : Fin 2) * 768 + 1 * g.val = g.val; rw [f1] <;> omega

/-- The staged hidden-side gate matrix: entry (k, g) is W_hh at (g, k). -/
theorem whhT_at (c : Dev nD) (t : Fin cfg0.N) (k : Fin 256) (g : Fin 768) :
    (iblk m c 5 t : Vec Ideal S256x768 .bf16) (ix2 k g) = m ((c.tc : Thread nD τ).loc main_arg5) (ix2 g k) := by
  obtain ⟨-, -, -, -, -, -, -, -, -, -, -, f0, f1, -⟩ := idx_facts t
  unfold iblk
  rw [View.read_apply]
  refine Eq.trans (congrArg (V m c main_v5 : S256x768.Idx → EReal) (funext fun a => Fin.ext ?_)) (whh_at m c k g)
  match a with
  | ⟨0, _⟩ => show win0_5.index t (0 : Fin 2) * 256 + 1 * k.val = k.val; rw [f0] <;> omega
  | ⟨1, _⟩ => show win0_5.index t (1 : Fin 2) * 768 + 1 * g.val = g.val; rw [f1] <;> omega

/-- The staged combined reset/update bias. -/
theorem brzRow_at (c : Dev nD) (t : Fin cfg0.N) (g : Fin 512) :
    (iblk m c 6 t : Vec Ideal S1x512 .f32) (ix2 (0 : Fin 1) g) = bihAt m c (wide g) + bhhAt m c (wide g) := by
  obtain ⟨-, -, -, -, -, -, -, -, -, -, -, -, -, f0, f1, -⟩ := idx_facts t
  unfold iblk
  rw [View.read_apply]
  refine Eq.trans (congrArg (V m c main_v10 : S1x512.Idx → EReal) (funext fun a => Fin.ext ?_)) (brz_at m c g)
  match a with
  | ⟨0, _⟩ => show win0_6.index t (0 : Fin 2) * 1 + 1 * 0 = 0; rw [f0] <;> omega
  | ⟨1, _⟩ => show win0_6.index t (1 : Fin 2) * 512 + 1 * g.val = g.val; rw [f1] <;> omega

/-- The staged input-side candidate bias. -/
theorem binRow_at (c : Dev nD) (t : Fin cfg0.N) (j : Fin 256) :
    (iblk m c 7 t : Vec Ideal S1x256 .f32) (ix2 (0 : Fin 1) j) = bihAt m c (rowN j) := by
  obtain ⟨-, -, -, -, -, -, -, -, -, -, -, -, -, -, -, f0, f1, -⟩ := idx_facts t
  unfold iblk
  rw [View.read_apply]
  refine Eq.trans (congrArg (V m c main_v12 : S1x256.Idx → EReal) (funext fun a => Fin.ext ?_)) (bin_at m c j)
  match a with
  | ⟨0, _⟩ => show win0_7.index t (0 : Fin 2) * 1 + 1 * 0 = 0; rw [f0] <;> omega
  | ⟨1, _⟩ => show win0_7.index t (1 : Fin 2) * 256 + 1 * j.val = j.val; rw [f1] <;> omega

/-- The staged hidden-side candidate bias. -/
theorem bhnRow_at (c : Dev nD) (t : Fin cfg0.N) (j : Fin 256) :
    (iblk m c 8 t : Vec Ideal S1x256 .f32) (ix2 (0 : Fin 1) j) = bhhAt m c (rowN j) := by
  obtain ⟨-, -, -, -, -, -, -, -, -, -, -, -, -, -, -, -, -, f0, f1, -⟩ := idx_facts t
  unfold iblk
  rw [View.read_apply]
  refine Eq.trans (congrArg (V m c main_v14 : S1x256.Idx → EReal) (funext fun a => Fin.ext ?_)) (bhn_at m c j)
  match a with
  | ⟨0, _⟩ => show win0_8.index t (0 : Fin 2) * 1 + 1 * 0 = 0; rw [f0] <;> omega
  | ⟨1, _⟩ => show win0_8.index t (1 : Fin 2) * 256 + 1 * j.val = j.val; rw [f1] <;> omega

/-! ## The result array -/

/-- The GRU's new hidden state of the argument arrays, as one array. -/
abbrev result (c : Dev nD) : Buf (Elt Ideal) ((c.tc : Thread nD τ).loc main_v15) :=
  gru (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- WHAT POINT `t` WRITES BACK is block `t` of `result`. -/
theorem flushed_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after0_9]
  funext y
  obtain ⟨p, q, rfl⟩ : ∃ (p : Fin 2048) (q : Fin 256), y = ix2 p q := ⟨y 0, y 1, eq_ix2 y⟩
  obtain ⟨-, -, -, -, -, -, -, -, -, -, -, -, -, -, -, -, -, -, -, e0, e1⟩ := idx_facts t
  have hemb : ((cfg0.win 9).blk t).view.emb (ix2 p q) = ix2 (rowOf t p) q := funext fun a => Fin.ext (by
    match a with
    | ⟨0, _⟩ => show win0_9.index t (0 : Fin 2) * 2048 + 1 * p.val = t.val * 2048 + p.val; rw [e0]; omega
    | ⟨1, _⟩ => show win0_9.index t (1 : Fin 2) * 256 + 1 * q.val = q.val; rw [e1]; omega)
  show out0_9 (iblk m c 0 t) (iblk m c 1 t) (iblk m c 2 t) (iblk m c 3 t) (iblk m c 4 t) (iblk m c 5 t) (iblk m c 6 t) (iblk m c 7 t) (iblk m c 8 t) (ix2 p q)
    = result m c (((cfg0.win 9).blk t).view.emb (ix2 p q))
  rw [hemb]
  refine (out_at (iblk m c 0 t) (iblk m c 1 t) (iblk m c 2 t) (iblk m c 3 t) (iblk m c 4 t) (iblk m c 5 t) (iblk m c 6 t) (iblk m c 7 t) (iblk m c 8 t) p q).trans ?_
  show _ = gru (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 (rowOf t p) q)
  rw [gru_apply]
  unfold cell
  simp only [x_at, h_at, wpT_at, bpRow_at, wihT_at, whhT_at, brzRow_at, binRow_at, bhnRow_at]

/-- An index of the result array is in point `t`'s block iff each coordinate is in the block's range on its axis. -/
theorem mem_blk (t : Fin cfg0.N) (i : S131072x256.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v15).slice (win0_9.rect t)).set ↔ _
  rw [View.set_slice_whole, Rect.mem_set_unit]
  exact Iff.rfl

/-- Row `r` is in the block of point `r / 2048`: the 64 blocks cover the array. -/
theorem cover (i : S131072x256.Idx) : ∃ t : Fin cfg0.N, (cfg0.win 9).flush t = true ∧ i ∈ ((cfg0.win 9).blk t).view.set := by
  have hi0 : (i 0).val < 131072 := (i 0).isLt
  have hi1 : (i 1).val < 256 := (i 1).isLt
  have ht : (i 0).val / 2048 < cfg0.N := Nat.lt_of_lt_of_eq (by omega : (i 0).val / 2048 < 64) (show 64 = cfg0.N from N_0.symm)
  obtain ⟨-, -, -, -, -, -, -, -, -, -, -, -, -, -, -, -, -, -, -, e0, e1⟩ := idx_facts ⟨(i 0).val / 2048, ht⟩
  refine ⟨⟨(i 0).val / 2048, ht⟩, flush0_9 _, ?_⟩
  rw [mem_blk]
  intro a
  match a with
  | ⟨0, _⟩ =>
    show win0_9.index ⟨(i 0).val / 2048, ht⟩ (0 : Fin 2) * 2048 ≤ (i 0).val ∧ (i 0).val < win0_9.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_9.index ⟨(i 0).val / 2048, ht⟩ (1 : Fin 2) * 256 ≤ (i 1).val ∧ (i 1).val < win0_9.index ⟨(i 0).val / 2048, ht⟩ (1 : Fin 2) * 256 + 256
    rw [e1]
    omega

/-- THE RESULT ARRAY after the region is `result`. -/
theorem final (c : Dev nD) : (dats m 0 c).arrAt 9 cfg0.N = result m c :=
  (dats m 0 c).arrAt_eq_of_cover 9 (result m c) (fun t _ => flushed_eq m c t) cover

/-! ## The line after the region, and the run -/

/-- The second result: the first with a leading unit axis. -/
abbrev result1 (c : Dev nD) : Buf (Elt Ideal) ((c.tc : Thread nD τ).loc main_v16) :=
  broadcastInDim S1x131072x256 ![1, 2] bcast_S131072x256_S1x131072x256_1_2 (result m c)

theorem tail_eq (c : Dev nD) :
    Pipeline.afterTail₀ cfgs (dats m) 0 (V0 m) [hostOps1] c main_v16 = result1 m c := by
  unfold Pipeline.afterTail₀
  show StableHlo.after hostOps1 _ (Proc.devRef .tc main_v16) = _
  after_results
  refine congrArg (fun x : S131072x256.Idx → EReal => broadcastInDim S1x131072x256 ![1, 2] bcast_S131072x256_S1x131072x256_1_2 x) ?_
  refine (Pipeline.withArrays_arr spec0 launch0.win.arr_inj c (V0 m c) (fun w => (dats m 0 c).arrAt w cfg0.N) 9).trans ?_
  exact final m c

/-- THE KERNEL'S RUN, read: both results at the GRU's new hidden state of the arguments, the arguments unchanged. -/
theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_v16) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 9).trans (final m c),
      ((h c).2 main_v16 (Pipeline.mem_restRefs_of main_v16 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Whole

end
-- ==== Proof.RefValue.lean ====
/-
  The reference program read at an index: at row `b` and column `j` its first result is the GRU cell of
  `Spec.lean` applied to row `b` of the input, row `b` of the previous hidden state, and the weights.

  The reference multiplies by the transposed weight matrices, adds each bias to its own product, slices the three
  gate blocks out of the 768 stacked columns and spells the sigmoid as 1 / (1 + e^(−u)). Transposition only renames
  the index that is summed over; the slices read columns j, 256 + j, 512 + j; the regrouping of the two biases is
  `gate_regroup`; and 1 / (1 + e^(−u)) is the sigmoid by definition.
-/
import proofs.«412377_j52673478918341_3_alg».proof.Proof.Gen.ReferenceIdeal.Read
import proofs.«412377_j52673478918341_3_alg».proof.Proof.Spec
import Idealize.ShloMosaic.Lib.IdealHost

noncomputable section

namespace Cert.ReferenceIdeal.RefValue

open Cert.ReferenceIdeal Cert.ReferenceIdeal.Read Idealize.ShloMosaic Idealize.ShloMosaic.ValueIdx Cert.GruCell

variable (x0 : (⟨S131072x128, .f32⟩ : BufTy).Contents (Elt Ideal)) (x1 : (⟨S1x131072x256, .f32⟩ : BufTy).Contents (Elt Ideal))
  (x2 : (⟨S256x128, .f32⟩ : BufTy).Contents (Elt Ideal)) (x3 : (⟨S256, .f32⟩ : BufTy).Contents (Elt Ideal))
  (x4 x5 : (⟨S768x256, .f32⟩ : BufTy).Contents (Elt Ideal)) (x6 x7 : (⟨S768, .f32⟩ : BufTy).Contents (Elt Ideal))

/-- Row `b` of the input. -/
abbrev xrow (b : Fin 131072) : Fin 128 → EReal := fun i => x0 (ix2 b i)
/-- Row `b` of the previous hidden state. -/
abbrev hrow (b : Fin 131072) : Fin 256 → EReal := fun k => x1 (ix3 (0 : Fin 1) b k)
/-- The projection matrix by coordinates. -/
abbrev wpc : Fin 256 → Fin 128 → EReal := fun k i => x2 (ix2 k i)
/-- The projection bias by its coordinate. -/
abbrev bpc : Fin 256 → EReal := fun k => x3 (ix1 k)
/-- A stacked gate matrix by coordinates. -/
abbrev wc (x : (⟨S768x256, .f32⟩ : BufTy).Contents (Elt Ideal)) : Fin 768 → Fin 256 → EReal := fun c k => x (ix2 c k)
/-- A stacked gate bias by its coordinate. -/
abbrev bc (x : (⟨S768, .f32⟩ : BufTy).Contents (Elt Ideal)) : Fin 768 → EReal := fun c => x (ix1 c)

/-- The projection with its ReLU at (b, k). -/
theorem proj_at (b : Fin 131072) (k : Fin 256) :
    val_main_v5 (F := Ideal) x0 x2 x3 (ix2 b k) = proj (xrow x0 b) (wpc x2) (bpc x3) k := by
  rw [val_main_v5_apply, val_main_v4_apply, val_main_v1_apply, val_main_v3_apply, val_main_v2_apply,
    val_main_call0_v0_apply, val_main_call0_cst_apply]
  simp only [val_main_v0_apply]
  unfold proj
  simp only [Ideal.maximumf_def, Ideal.addf_def, Ideal.ofBits_def, Ideal.ofBits_zero_f32]
  have e1 : ∀ i : Fin 128, lidx_main_v1 (ix2 b k) i = ix2 b i := fun i => funext fun a => by
    match a with | ⟨0, _⟩ => rfl | ⟨1, _⟩ => rfl
  have e2 : ∀ i : Fin 128, idx_main_v0 (ridx_main_v1 (ix2 b k) i) = ix2 k i := fun i => funext fun a => by
    match a with | ⟨0, _⟩ => rfl | ⟨1, _⟩ => rfl
  have e3 : idx_main_v2 (idx_main_v3 (ix2 b k)) = ix1 k := funext fun a => by
    match a with | ⟨0, _⟩ => rfl
  simp only [e1, e2, e3]

/-- The input side of the gates at (b, c): row `c` of W_ih applied to the projected row, plus its bias. -/
theorem gi_at (b : Fin 131072) (c : Fin 768) :
    val_main_v11 (F := Ideal) x0 x2 x3 x4 x6 (ix2 b c)
      = lin (proj (xrow x0 b) (wpc x2) (bpc x3)) (wc x4) c + bc x6 c := by
  rw [val_main_v11_apply, val_main_v8_apply, val_main_v10_apply, val_main_v9_apply]
  simp only [val_main_v7_apply]
  have e1 : ∀ k : Fin 256, lidx_main_v8 (ix2 b c) k = ix2 b k := fun k => funext fun a => by
    match a with | ⟨0, _⟩ => rfl | ⟨1, _⟩ => rfl
  have e2 : ∀ k : Fin 256, idx_main_v7 (ridx_main_v8 (ix2 b c) k) = ix2 c k := fun k => funext fun a => by
    match a with | ⟨0, _⟩ => rfl | ⟨1, _⟩ => rfl
  have e3 : idx_main_v9 (idx_main_v10 (ix2 b c)) = ix1 c := funext fun a => by
    match a with | ⟨0, _⟩ => rfl
  simp only [e1, e2, e3, proj_at]
  rfl

/-- The hidden side of the gates at (b, c): row `c` of W_hh applied to the previous hidden row, plus its bias. -/
theorem gh_at (b : Fin 131072) (c : Fin 768) :
    val_main_v16 (F := Ideal) x1 x5 x7 (ix2 b c) = lin (hrow x1 b) (wc x5) c + bc x7 c := by
  rw [val_main_v16_apply, val_main_v13_apply, val_main_v15_apply, val_main_v14_apply]
  simp only [val_main_v12_apply, val_main_v6_apply]
  have e1 : ∀ k : Fin 256, idx_main_v6 (lidx_main_v13 (ix2 b c) k) = ix3 (0 : Fin 1) b k := fun k => funext fun a => by
    have hb := b.isLt
    have hk := k.isLt
    match a with
    | ⟨0, _⟩ => rfl
    | ⟨1, _⟩ => exact Fin.ext (by show (b.val * 256 + k.val) / 256 % 131072 = b.val; omega)
    | ⟨2, _⟩ => exact Fin.ext (by show (b.val * 256 + k.val) % 256 = k.val; omega)
  have e2 : ∀ k : Fin 256, idx_main_v12 (ridx_main_v13 (ix2 b c) k) = ix2 c k := fun k => funext fun a => by
    match a with | ⟨0, _⟩ => rfl | ⟨1, _⟩ => rfl
  have e3 : idx_main_v14 (idx_main_v15 (ix2 b c)) = ix1 c := funext fun a => by
    match a with | ⟨0, _⟩ => rfl
  simp only [e1, e2, e3]
  rfl

/-- The previous hidden state, with its leading unit axis dropped, at (b, j). -/
theorem h_at (b : Fin 131072) (j : Fin 256) : val_main_v6 (F := Ideal) x1 (ix2 b j) = hrow x1 b j := by
  rw [val_main_v6_apply]
  refine congrArg x1 (funext fun a => ?_)
  have hb := b.isLt
  have hj := j.isLt
  match a with
  | ⟨0, _⟩ => rfl
  | ⟨1, _⟩ => exact Fin.ext (by show (b.val * 256 + j.val) / 256 % 131072 = b.val; omega)
  | ⟨2, _⟩ => exact Fin.ext (by show (b.val * 256 + j.val) % 256 = j.val; omega)

/-- The three column blocks of 256 that the slices cut out of the 768 stacked columns. -/
theorem sliceR (b : Fin 131072) (j : Fin 256) : idx_main_v17 (ix2 b j) = ix2 b (rowR j) := funext fun a => by
  match a with | ⟨0, _⟩ => rfl | ⟨1, _⟩ => rfl
theorem sliceZ (b : Fin 131072) (j : Fin 256) : idx_main_v18 (ix2 b j) = ix2 b (rowZ j) := funext fun a => by
  match a with | ⟨0, _⟩ => rfl | ⟨1, _⟩ => rfl
theorem sliceN (b : Fin 131072) (j : Fin 256) : idx_main_v19 (ix2 b j) = ix2 b (rowN j) := funext fun a => by
  match a with | ⟨0, _⟩ => rfl | ⟨1, _⟩ => rfl
theorem sliceR' (b : Fin 131072) (j : Fin 256) : idx_main_v20 (ix2 b j) = ix2 b (rowR j) := funext fun a => by
  match a with | ⟨0, _⟩ => rfl | ⟨1, _⟩ => rfl
theorem sliceZ' (b : Fin 131072) (j : Fin 256) : idx_main_v21 (ix2 b j) = ix2 b (rowZ j) := funext fun a => by
  match a with | ⟨0, _⟩ => rfl | ⟨1, _⟩ => rfl
theorem sliceN' (b : Fin 131072) (j : Fin 256) : idx_main_v22 (ix2 b j) = ix2 b (rowN j) := funext fun a => by
  match a with | ⟨0, _⟩ => rfl | ⟨1, _⟩ => rfl

/-- THE REFERENCE AT AN INDEX: its first result at (b, j) is the GRU cell of row `b`. -/
theorem cell_at (b : Fin 131072) (j : Fin 256) :
    val_main_v44 (F := Ideal) x0 x1 x2 x3 x4 x5 x6 x7 (ix2 b j)
      = cell (xrow x0 b) (hrow x1 b) (wpc x2) (bpc x3) (wc x4) (wc x5) (bc x6) (bc x7) j := by
  simp only [val_main_v44_apply, val_main_v43_apply, val_main_v42_apply, val_main_v41_apply, val_main_v40_apply,
    val_main_cst_3_apply, val_main_v39_apply, val_main_v38_apply, val_main_v37_apply, val_main_v36_apply,
    val_main_v35_apply, val_main_cst_2_apply, val_main_v34_apply, val_main_v33_apply, val_main_cst_1_apply,
    val_main_v32_apply, val_main_v31_apply, val_main_v30_apply, val_main_v29_apply, val_main_v28_apply,
    val_main_cst_0_apply, val_main_v27_apply, val_main_v26_apply, val_main_cst_apply, val_main_v25_apply,
    val_main_v24_apply, val_main_v23_apply, val_main_v22_apply, val_main_v21_apply, val_main_v20_apply,
    val_main_v19_apply, val_main_v18_apply, val_main_v17_apply,
    sliceR, sliceZ, sliceN, sliceR', sliceZ', sliceN', gi_at, gh_at, h_at]
  simp only [Ideal.addf_def, Ideal.subf_def, Ideal.mulf_def, Ideal.hostDivf_def, Ideal.hostNegf_def, Ideal.negf_def,
    Ideal.hostUnary_exp_def, Ideal.hostUnary_tanh_def, Ideal.ofBits_def, Ideal.ofBits_one_f32, gate_regroup]
  rfl

/-- THE REFERENCE'S FIRST RESULT as one array. -/
theorem result_eq : val_main_v44 (F := Ideal) x0 x1 x2 x3 x4 x5 x6 x7 = gru x0 x1 x2 x3 x4 x5 x6 x7 := by
  funext i
  obtain ⟨b, j, rfl⟩ : ∃ (b : Fin 131072) (j : Fin 256), i = ix2 b j := ⟨i 0, i 1, eq_ix2 i⟩
  rw [cell_at, gru_apply]

end Cert.ReferenceIdeal.RefValue

end
-- ==== Proof.lean ====
/-
  A fused GRU cell on a ReLU input projection, against its plain reference, over the extended reals.

  Both programs compute, for each of the 131072 batch rows b and each of the 256 hidden columns j,
    p      = relu (x_b · Wpᵀ + bp)
    r, z   = σ (p · W_ihᵀ + h_b · W_hhᵀ + b_ih + b_hh)     on the reset rows j and the update rows 256 + j
    n      = tanh ((p · W_ihᵀ + b_ih) + r · (h_b · W_hhᵀ + b_hh))   on the candidate rows 512 + j
    h'     = (1 − z) · n + z · h_b
  and return h' twice, the second time with a leading unit axis (`Spec.lean`: `cell`, `gru`).

  The kernel works on blocks of 2048 rows, with the weights transposed beforehand and the reset and update biases added
  beforehand into one vector; it adds the two gate products first and that combined bias second. The reference adds
  each bias to its own product and then the two sums. On the extended reals addition is commutative and associative
  whatever the operands, so the two groupings agree (`GruCell.gate_regroup`); the kernel's one-step sigmoid is by
  definition the reference's 1 / (1 + e^(−u)); changes of float format are the identity; a product into a zero
  accumulator is the plain sum of products on both sides. The precondition (finite inputs) is not used.

  `KernelValue.lean` reads the kernel's run (each block as the cell of its rows, the 64 blocks covering the array, the
  line after the region); `RefValue.lean` reads the reference's run index by index; here the two meet.
-/
import proofs.«412377_j52673478918341_3_alg».proof.Defs
import proofs.«412377_j52673478918341_3_alg».proof.Proof.Gen.Kernel
import proofs.«412377_j52673478918341_3_alg».proof.Proof.Gen.Kernel.Skeleton
import proofs.«412377_j52673478918341_3_alg».proof.Proof.Gen.Kernel.Launch
import proofs.«412377_j52673478918341_3_alg».proof.Proof.Gen.Kernel.Points
import proofs.«412377_j52673478918341_3_alg».proof.Proof.Gen.Kernel.Frame
import proofs.«412377_j52673478918341_3_alg».proof.Proof.Gen.KernelIdeal
import proofs.«412377_j52673478918341_3_alg».proof.Proof.Gen.KernelIdeal.Skeleton
import proofs.«412377_j52673478918341_3_alg».proof.Proof.Gen.KernelIdeal.Launch
import proofs.«412377_j52673478918341_3_alg».proof.Proof.Gen.KernelIdeal.Points
import proofs.«412377_j52673478918341_3_alg».proof.Proof.Gen.KernelIdeal.Frame
import proofs.«412377_j52673478918341_3_alg».proof.Proof.Gen.ReferenceIdeal
import proofs.«412377_j52673478918341_3_alg».proof.Proof.Gen.Pre_finite_inputs
import proofs.«412377_j52673478918341_3_alg».proof.Proof.Gen.ReferenceIdeal.Run
import proofs.«412377_j52673478918341_3_alg».proof.Proof.Gen.ReferenceIdeal.Read
import proofs.«412377_j52673478918341_3_alg».proof.Proof.KernelValue
import proofs.«412377_j52673478918341_3_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the GRU's new hidden state of the arguments in
    the first result and the same with a leading unit axis in the second. -/
theorem algebraic : Cert.algebraic_KernelIdeal_ReferenceIdeal := by
  intro m ρ m' ρ' _ hagree
  refine ⟨fun c => Cert.KernelIdeal.Whole.result m c, fun c => Cert.KernelIdeal.Whole.result1 m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v44_eq, Cert.ReferenceIdeal.RefValue.result_eq, h0, h1, h2, h3, h4, h5, h6, h7]
  · obtain ⟨h0, h1, h2, h3, h4, h5, h6, h7⟩ := hagree c
    rw [Cert.ReferenceIdeal.Read.val_main_v45_eq]
    unfold Cert.ReferenceIdeal.Read.val_main_v45
    rw [Cert.ReferenceIdeal.RefValue.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
